-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x64x4096 : Shape := ⟨3, ![16, 64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x64x4096 : S_.BroadcastsInDim S16x64x4096 (![] : Fin 0 → Fin S16x64x4096.rank)
  reducesTo_S16x64x4096_S_d0_1_2 : S16x64x4096.ReducesTo [0, 1, 2] S_

variable [Facts]

def fn {F : FTy → Type} [FloatOps F] (main_arg0 : FVec F S8192x4096 .f32) (main_arg1 : FVec F S16x64x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x64x4096 .f32 := Host.absf main_arg1
  let main_cst_0 : FVec F S_ .f32 := constant S_ .f32 0x7F800000#32
  let main_v5 : FVec F S16x64x4096 .f32 := broadcastInDim S16x64x4096 ![] bcast_S_S16x64x4096 main_cst_0
  let main_v6 : IVec S16x64x4096 1 := cmpf .olt main_v4 main_v5
  let main_c_1 : IVec S_ 1 := constantI S_ 1 1#1
  let main_v7 : IVec S_ 1 := (fun x v => Host.reduce IntOp.andi x v reducesTo_S16x64x4096_S_d0_1_2 h_S_) main_v6 main_c_1
  let main_v8 : IVec S_ 1 := andi main_v3 main_v7
  main_v8
-- ==== Kernel.lean ====
abbrev S8192x4096 : Shape := ⟨2, ![8192, 4096]⟩
abbrev S16x64x4096 : Shape := ⟨3, ![16, 64, 4096]⟩
abbrev S4096x16x64 : Shape := ⟨3, ![4096, 16, 64]⟩
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S8192x16 : Shape := ⟨2, ![8192, 16]⟩
abbrev S512x4096 : Shape := ⟨2, ![512, 4096]⟩
abbrev S512x16 : Shape := ⟨2, ![512, 16]⟩
abbrev S512x1024 : Shape := ⟨2, ![512, 1024]⟩

abbrev nBuf : Space → Nat
  | .hbm => 31
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S16x64x4096, .f32⟩
  | .hbm, ⟨2, _⟩ => ⟨S4096x16x64, .f32⟩
  | .hbm, ⟨3, _⟩ => ⟨S4096x1024, .f32⟩
  | .hbm, ⟨4, _⟩ => ⟨S4096x1024, .bf16⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x16, .i32⟩
  | .hbm, ⟨26, _⟩ => ⟨S1024x16, .i32⟩
  | .hbm, ⟨27, _⟩ => ⟨S1024x16, .i32⟩
  | .hbm, ⟨28, _⟩ => ⟨S1024x16, .i1⟩
  | .hbm, ⟨29, _⟩ => ⟨S1024x16, .f32⟩
  | .hbm, ⟨30, _⟩ => ⟨S8192x16, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S1024x16, .f32⟩
  | .local _ .vmem, ⟨4, _⟩ => ⟨S512x16, .f32⟩
  | .local _ .vmem, ⟨5, _⟩ => ⟨S512x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_v6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x64x4096_S4096x16x64_2_0_1 : S16x64x4096.Transposes [2, 0, 1] S4096x16x64
  shapeCasts_S4096x16x64_S4096x1024 : S4096x16x64.ShapeCasts S4096x1024
  bitsLt_bf16_f32 : FTy.bits .bf16 < FTy.bits .f32
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S512x16_S512x16_0_0 : ∀ a, (![0, 0] : Fin 2 → Nat) a + S512x16.size a ≤ S512x16.size a
  h_S512x16 : 0 < S512x16.numel
  dot_S512x4096_S4096x1024_S512x1024_1_0_0_1_n_n_wf : DotDims.WF S512x4096 S4096x1024 S512x1024 [1] [0] [0] [1] [] []
  dot_S512x1024_S1024x16_S512x16_1_0_0_1_n_n_wf : DotDims.WF S512x1024 S1024x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x64x4096 : Shape := ⟨3, ![16, 64, 4096]⟩
abbrev S8192x16x64 : Shape := ⟨3, ![8192, 16, 64]⟩
abbrev S_ : Shape := ⟨0, ![]⟩
abbrev S8192x16 : Shape := ⟨2, ![8192, 16]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x64x4096, .f32⟩
  | .hbm, ⟨2, _⟩ => ⟨S8192x16x64, .f32⟩
  | .hbm, ⟨3, _⟩ => ⟨S8192x16x64, .f32⟩
  | .hbm, ⟨4, _⟩ => ⟨S_, .f32⟩
  | .hbm, ⟨5, _⟩ => ⟨S8192x16, .f32⟩
  | .hbm, ⟨6, _⟩ => ⟨S8192x16, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x16x64_S8192x16_d2 : S8192x16x64.ReducesTo [2] S8192x16
  h_S_ : 0 < S_.numel
  dot_S8192x4096_S16x64x4096_S8192x16x64_1_2_0_01_n_n_wf : DotDims.WF S8192x4096 S16x64x4096 S8192x16x64 [1] [2] [0] [0, 1] [] []

variable [Facts₀]

def dot_S8192x4096_S16x64x4096_S8192x16x64_1_2_0_01_n_n : DotDims S8192x4096 S16x64x4096 S8192x16x64 where
  lhsContracting := [1]
  rhsContracting := [2]
  lhsNonContracting := [0]
  rhsNonContracting := [0, 1]
  lhsBatch := []
  rhsBatch := []
  wf := dot_S8192x4096_S16x64x4096_S8192x16x64_1_2_0_01_n_n_wf

class Facts : Prop extends Facts₀ where

variable [Facts]
-- ==== Proof.RouterSpec.lean ====
/-
  The router score as one function of the two argument arrays, in two arrangements, and the law that joins them.

  For a row b of x and an expert e, the score is the Euclidean length of the 64 projections
  t(b, e, k) = sum over d of x(b, d) * w(e, k, d):  score(b, e) = sqrt (sum over k < 64 of t(b, e, k)^2).

  The flat arrangement numbers the 16 * 64 pairs (e, k) by j = e * 64 + k < 1024, squares all 1024 projections of the
  row, and picks expert e's sixty-four out of them with a factor that is 1 when j / 64 = e and 0 otherwise:
  score(b, e) = sqrt (sum over j < 1024 of t(b, j / 64, j % 64)^2 * [j / 64 = e]).

  The two agree because a sum over j < 1024 splits as a sum over e' < 16 of sums over k < 64 (j = k + 64 * e'), in which
  every block e' other than e contributes zeros.  On the extended reals a product with 0 is 0 and a product with 1 is
  the other factor whatever that factor is, so nothing here asks the projections to be finite.
-/
import Idealize.ShloMosaic.PureOps.Ideal
import Idealize.ShloMosaic.Lib.ValueIdx
import Mathlib.Algebra.BigOperators.Fin
import Mathlib.Logic.Equiv.Fin.Basic

noncomputable section

namespace Router

open Idealize.ShloMosaic Idealize.ShloMosaic.ValueIdx

/-- The 8192 rows of 4096 features. -/
abbrev SX : Shape := ⟨2, ![8192, 4096]⟩
/-- Sixteen experts, sixty-four directions each, 4096 features. -/
abbrev SW : Shape := ⟨3, ![16, 64, 4096]⟩
/-- One score per row and expert. -/
abbrev SO : Shape := ⟨2, ![8192, 16]⟩

/-- The projection of row `b` on direction `k` of expert `e`. -/
def proj (x : SX.Idx → EReal) (w : SW.Idx → EReal) (b : Fin 8192) (e : Fin 16) (k : Fin 64) : EReal :=
  ∑ d : Fin 4096, x (ix2 b d) * w (ix3 e k d)

/-- The score: the length of the vector of the sixty-four projections. -/
def score (x : SX.Idx → EReal) (w : SW.Idx → EReal) : SO.Idx → EReal := fun i =>
  Ideal.sqrt (∑ k : Fin 64, proj x w (i 0) (i 1) k * proj x w (i 0) (i 1) k)

/-- The expert a flat position belongs to. -/
def expertOf (j : Fin 1024) : Fin 16 := ⟨j.val / 64, by have := j.isLt; omega⟩
/-- The direction, within its expert, of a flat position. -/
def dirOf (j : Fin 1024) : Fin 64 := ⟨j.val % 64, Nat.mod_lt _ (by decide)⟩

/-- The projection of row `b` at flat position `j`. -/
def projFlat (x : SX.Idx → EReal) (w : SW.Idx → EReal) (b : Fin 8192) (j : Fin 1024) : EReal :=
  ∑ d : Fin 4096, x (ix2 b d) * w (ix3 (expertOf j) (dirOf j) d)

/-- The score in the flat arrangement: all 1024 squares of the row, each times the 0/1 grouping factor. -/
def scoreFlat (x : SX.Idx → EReal) (w : SW.Idx → EReal) : SO.Idx → EReal := fun i =>
  Ideal.sqrt (∑ j : Fin 1024, projFlat x w (i 0) j * projFlat x w (i 0) j * (if j.val / 64 = (i 1).val then 1 else 0))

/-- A sum over the 1024 flat positions that keeps only expert `e`'s is the sum over that expert's 64 directions. -/
theorem sum_group {M : Type} [AddCommMonoid M] (f : Fin 1024 → M) (e : Fin 16) :
    ∑ j : Fin 1024, (if j.val / 64 = e.val then f j else 0)
      = ∑ k : Fin 64, f ⟨e.val * 64 + k.val, by have := e.isLt; have := k.isLt; omega⟩ := by
  have hsplit : ∑ j : Fin 1024, (if j.val / 64 = e.val then f j else 0)
      = ∑ p : Fin 16 × Fin 64, (if (finProdFinEquiv p : Fin (16 * 64)).val / 64 = e.val then f (finProdFinEquiv p) else 0) :=
    (Equiv.sum_comp (finProdFinEquiv (m := 16) (n := 64)) (fun j : Fin 1024 => if j.val / 64 = e.val then f j else 0)).symm
  rw [hsplit, Fintype.sum_prod_type, Finset.sum_eq_single e]
  · refine Finset.sum_congr rfl fun k _ => ?_
    have hv : (finProdFinEquiv (e, k) : Fin (16 * 64)).val = e.val * 64 + k.val := by
      rw [finProdFinEquiv_apply_val]; dsimp only; omega
    rw [if_pos (by rw [hv]; have := k.isLt; omega)]
    exact congrArg f (Fin.ext hv)
  · intro a _ hae
    refine Finset.sum_eq_zero fun k _ => ?_
    rw [if_neg]
    rw [finProdFinEquiv_apply_val]; dsimp only
    intro h; apply hae; apply Fin.ext; have := k.isLt; omega
  · intro h; exact absurd (Finset.mem_univ e) h

/-- The flat position `e * 64 + k` belongs to expert `e` and is its direction `k`. -/
theorem projFlat_at (x : SX.Idx → EReal) (w : SW.Idx → EReal) (b : Fin 8192) (e : Fin 16) (k : Fin 64) :
    projFlat x w b ⟨e.val * 64 + k.val, by have := e.isLt; have := k.isLt; omega⟩ = proj x w b e k := by
  have he : expertOf ⟨e.val * 64 + k.val, by have := e.isLt; have := k.isLt; omega⟩ = e := by
    apply Fin.ext; show (e.val * 64 + k.val) / 64 = e.val; have := k.isLt; omega
  have hk : dirOf ⟨e.val * 64 + k.val, by have := e.isLt; have := k.isLt; omega⟩ = k := by
    apply Fin.ext; show (e.val * 64 + k.val) % 64 = k.val; have := k.isLt; omega
  unfold projFlat proj
  rw [he, hk]

/-- The two arrangements give one score. -/
theorem scoreFlat_eq (x : SX.Idx → EReal) (w : SW.Idx → EReal) : scoreFlat x w = score x w := by
  funext i
  unfold scoreFlat score
  congr 1
  simp only [mul_ite, mul_one, mul_zero]
  rw [sum_group (fun j => projFlat x w (i 0) j * projFlat x w (i 0) j) (i 1)]
  exact Finset.sum_congr rfl fun k _ =>
    congrArg₂ (· * ·) (projFlat_at x w (i 0) (i 1) k) (projFlat_at x w (i 0) (i 1) k)

end Router

end
-- ==== Proof.RouterHost.lean ====
/-
  The two arrays the program computes before the kernel region, read at an index.

  The weight window holds the weights with the feature axis moved to the front and the (expert, direction) pair
  flattened: at (d, j) it holds w(j / 64, j % 64, d).  A change of float format is the identity on extended reals.

  The grouping window holds, at (j, e), the number 1 when j / 64 = e and 0 otherwise.  The program computes j / 64 as
  a rounded-down quotient of 32-bit words: the quotient rounded toward zero, less one where the signs of dividend and
  divisor differ and the remainder is not zero.  For a word 0 <= j < 1024 divided by 64 that correction never applies:
  at j = 0 the remainder is zero, and at j > 0 both signs are +1.  So the word is j / 64, and comparing it with the
  column's number e < 16 decides j / 64 = e.  The comparison's bit, read as a float, is 1 or 0.
-/
import proofs.«111365_j48352741818881_1_alg».proof.Proof.Gen.KernelIdeal.Frame
import proofs.«111365_j48352741818881_1_alg».proof.Proof.RouterSpec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.Affine
import Idealize.ShloMosaic.PureOps.Ideal

noncomputable section

namespace Cert.KernelIdeal.RouterHost

open Cert.KernelIdeal Cert.KernelIdeal.Gen Idealize.ShloMosaic Idealize.ShloMosaic.TcCoe Idealize.SL.Sem
open Idealize.ShloMosaic.StableHlo Idealize.ShloMosaic.ValueIdx Idealize.ShloMosaic.StableHlo.Predicate

/-! ## Words: the rounded-down quotient by 64 of a small word -/

/-- The sign of a word as the program computes it: 0, -1 or +1. -/
def signWord (w : BitVec 32) : BitVec 32 := if w = 0 then 0 else if w.msb then -1 else 1

/-- The rounded-down quotient by 64 as the program computes it, on one word. -/
def floorDivWord (w : BitVec 32) : BitVec 32 :=
  Scalar.select
    (IntOp.andi (IntOp.cmpi .ne (signWord w) (signWord 64#32)) (IntOp.cmpi .ne (IntOp.remsi .host w 64#32) 0#32))
    (IntOp.subi (IntOp.divsi .host w 64#32) 1#32)
    (IntOp.divsi .host w 64#32)

/-- A small word divided by 64: signed division meets no corner and is the quotient of the values. -/
theorem divsi_64 (u : ArithUnit) (w : BitVec 32) (hw : w.toNat < 2 ^ 31) : (IntOp.divsi u w 64#32).toNat = w.toNat / 64 := by
  have hcorner : ¬ IntOp.SDivCorner w 64#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (64#32 : BitVec 32).msb = false from by decide, BitVec.udiv_eq,
    BitVec.toNat_udiv, BitVec.toNat_ofNat]

/-- For 0 <= j < 1024 the correction never applies: the remainder is zero at j = 0, the signs agree at j > 0. -/
theorem floorDivWord_small (j : Nat) (hj : j < 1024) : floorDivWord (BitVec.ofNat 32 j) = BitVec.ofNat 32 (j / 64) := by
  have hN : (BitVec.ofNat 32 j).toNat = j := by rw [BitVec.toNat_ofNat]; omega
  have hcond : IntOp.andi (IntOp.cmpi .ne (signWord (BitVec.ofNat 32 j)) (signWord 64#32))
      (IntOp.cmpi .ne (IntOp.remsi .host (BitVec.ofNat 32 j) 64#32) 0#32) = 0#1 := by
    apply eq_zero_of_ne_one
    rw [IntOp.andi_eq_one, IntOp.cmpi_ne, IntOp.cmpi_ne]
    rintro ⟨hs, hr⟩
    by_cases h0 : j = 0
    · subst h0
      exact hr ((IntOp.remsi_eq_zero_iff .host (x := BitVec.ofNat 32 0) (by decide) 64 (by decide) (by decide)).mpr (by decide))
    · apply hs
      have hne : BitVec.ofNat 32 j ≠ 0 := by
        intro h; apply h0; rw [← hN, h]; rfl
      have hm : (BitVec.ofNat 32 j).msb = false := BitVec.msb_eq_false_iff_two_mul_lt.mpr (by omega)
      unfold signWord
      rw [if_neg hne, hm]
      decide
  unfold floorDivWord
  rw [hcond, select_zero]
  apply BitVec.eq_of_toNat_eq
  rw [divsi_64 .host _ (by omega), hN, BitVec.toNat_ofNat]
  omega

/-- The comparison's bit as a float at the exact instance: 1 when the words are equal, else 0. -/
theorem uitofp_cmpi_eq (a b : BitVec 32) :
    (FloatOps.uitofp (F := Ideal) .f32 (IntOp.cmpi .eq a b) : EReal) = if a = b then 1 else 0 := by
  by_cases h : a = b
  · rw [if_pos h, IntOp.cmpi_eq.mpr h]
    show (((1#1 : BitVec 1).toNat : ℝ) : EReal) = 1
    simp
  · rw [if_neg h, eq_zero_of_ne_one (mt IntOp.cmpi_eq.mp h)]
    show (((0#1 : BitVec 1).toNat : ℝ) : EReal) = 0
    simp

/-! ## The arrays the region finds -/

variable (m : (ℓ : Loc nD τ sig) → Buf (Elt Ideal) ℓ)

/-- The positions' rounded-down quotients by 64, as the program's operations. -/
def quot64 : IVec S1024 32 :=
  select
    (andi
      (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- At position `j` the quotient word is the one-word computation on the word `j`. -/
theorem quot64_apply (j : Fin 1024) : quot64 (Shape.Idx.ofFin j) = BitVec.ofNat 32 (j.val / 64) := by
  have h : quot64 (Shape.Idx.ofFin j) = floorDivWord (BitVec.ofNat 32 j.val) := rfl
  rw [h, floorDivWord_small j.val j.isLt]

/-- The grouping window's array when the region is entered. -/
theorem group_eq (c : Dev nD) : (V m c main_v5 : S1024x16.Idx → EReal) =
    uitofp (F := Ideal) .f32 (cmpi .eq
      (broadcastInDim S1024x16 ![0, 1] bcast_S1024x1_S1024x16_0_1 (broadcastInDim S1024x1 ![0] bcast_S1024_S1024x1_0 quot64))
      (broadcastInDim S1024x16 ![0, 1] bcast_S1x16_S1024x16_0_1 (iotaInDim S1x16 32 1))) := by
  dsimp only [Gen.V]
  simp only [Gen.hostOps0, Gen.hostOps0_1, Gen.hostOps0_2, List.flatten_cons, List.flatten_nil, List.append_nil, List.cons_append, List.nil_append]
  after_results
  rfl

theorem ij_eq_ix2 {n k : Nat} (p : Fin n) (q : Fin k) : ij p q = ix2 p q := by
  funext b; match b with | ⟨0, _⟩ => rfl | ⟨1, _⟩ => rfl

/-- The grouping window at (j, e): 1 when j / 64 = e, else 0. -/
theorem group_apply (c : Dev nD) (j : Fin 1024) (e : Fin 16) :
    (V m c main_v5 : S1024x16.Idx → EReal) (ix2 j e) = (if j.val / 64 = e.val then 1 else 0 : EReal) := by
  rw [group_eq, ← ij_eq_ix2]
  show FloatOps.uitofp (F := Ideal) .f32 (IntOp.cmpi .eq
      (broadcastInDim S1024x16 ![0, 1] bcast_S1024x1_S1024x16_0_1 (broadcastInDim S1024x1 ![0] bcast_S1024_S1024x1_0 quot64) (ij j e))
      (broadcastInDim S1024x16 ![0, 1] bcast_S1x16_S1024x16_0_1 (iotaInDim S1x16 32 1) (ij j e))) = _
  rw [bcast_of_col, bcast_of_row, bcast_col1, quot64_apply, uitofp_cmpi_eq]
  have hq : iotaInDim S1x16 32 1 (i1q e) = BitVec.ofNat 32 e.val := rfl
  rw [hq]
  have hiff : (BitVec.ofNat 32 (j.val / 64) = BitVec.ofNat 32 e.val) ↔ j.val / 64 = e.val := by
    constructor
    · intro h
      have := congrArg BitVec.toNat h
      rw [BitVec.toNat_ofNat, BitVec.toNat_ofNat] at this
      have := j.isLt; have := e.isLt; omega
    · intro h; rw [h]
  by_cases h : j.val / 64 = e.val
  · rw [if_pos h, if_pos (hiff.mpr h)]
  · rw [if_neg h, if_neg (mt hiff.mp h)]

/-- The weight window's array when the region is entered. -/
theorem weight_eq (c : Dev nD) : (V m c main_v2 : S4096x1024.Idx → EReal) =
    truncf (F := Ideal) .bf16 (shapeCast S4096x1024
      (transpose S4096x16x64 [2, 0, 1] (m ((c : Thread nD τ).loc main_arg1)) transposes_S16x64x4096_S4096x16x64_2_0_1)
      shapeCasts_S4096x16x64_S4096x1024) bitsLt_bf16_f32 := by
  dsimp only [Gen.V]
  simp only [Gen.hostOps0, Gen.hostOps0_1, Gen.hostOps0_2, List.flatten_cons, List.flatten_nil, List.append_nil, List.cons_append, List.nil_append]
  after_results
  rfl

/-- The weight window at (d, j): the weight of feature d for the expert and direction of flat position j. -/
theorem weight_apply (c : Dev nD) (d : Fin 4096) (j : Fin 1024) :
    (V m c main_v2 : S4096x1024.Idx → EReal) (ix2 d j)
      = (m ((c : Thread nD τ).loc main_arg1) : S16x64x4096.Idx → EReal) (ix3 (Router.expertOf j) (Router.dirOf j) d) := by
  rw [weight_eq]
  show shapeCast S4096x1024
      (transpose S4096x16x64 [2, 0, 1] (m ((c : Thread nD τ).loc main_arg1)) transposes_S16x64x4096_S4096x16x64_2_0_1)
      shapeCasts_S4096x16x64_S4096x1024 (ix2 d j) = _
  rw [shapeCast_apply _ _ (ix2 d j) (ix3 d (Router.expertOf j) (Router.dirOf j)) (by
    rw [Shape.rowMajor_val_three, Shape.rowMajor_val_two]
    show (d.val * 16 + j.val / 64) * 64 + j.val % 64 = d.val * 1024 + j.val
    omega)]
  exact transpose_apply _ _ _ _ _ fun b => match b with | ⟨0, _⟩ => rfl | ⟨1, _⟩ => rfl | ⟨2, _⟩ => rfl

end Cert.KernelIdeal.RouterHost

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.RouterBody.lean ====
/-
  The kernel body's stored value, read at an index.

  On one block of 512 rows the body multiplies the rows (512 x 4096) by the flattened weights (4096 x 1024), squares
  the 512 x 1024 result entry by entry, multiplies the squares by the 0/1 grouping matrix (1024 x 16) and takes the
  square root entry by entry.  Both products start from a zero accumulator, so on the extended reals each is the plain
  contraction sum, and the changes of float format and the shape casts to the same shape are identities.  At row p
  and column q the stored value is therefore
      sqrt (sum over j < 1024 of (sum over d < 4096 of rows(p, d) * weights(d, j))^2 * grouping(j, q)).
-/
import proofs.«111365_j48352741818881_1_alg».proof.Proof.Gen.KernelIdeal.Skeleton
import proofs.«111365_j48352741818881_1_alg».proof.Proof.LibPlainDot
import Idealize.ShloMosaic.PureOps.Ideal.Laws
import Idealize.ShloMosaic.Lib.Pipeline.Value
import Idealize.ShloMosaic.Lib.ValueIdx

noncomputable section

namespace Cert.KernelIdeal.RouterBody

open Cert.KernelIdeal Cert.KernelIdeal.Gen Idealize.ShloMosaic Idealize.ShloMosaic.ValueIdx

/-- The first product at (p, j): the row p against column j of the flattened weights. -/
theorem proj_apply (a : FVec Ideal S512x4096 .bf16) (b : FVec Ideal S4096x1024 .bf16) (p : Fin 512) (j : Fin 1024) :
    matmul dot_S512x4096_S4096x1024_S512x1024_1_0_0_1_n_n none a b (constant S512x1024 .f32 0x00000000#32) (ix2 p j)
      = ∑ d : Fin 4096, a (ix2 p d) * b (ix2 d j) := by
  simp only [matmul]
  rw [Ideal.matmul_constant_zero_apply]
  exact PlainDot.sum_eq dot_S512x4096_S4096x1024_S512x1024_1_0_0_1_n_n rfl rfl rfl rfl rfl rfl a b p j

/-- The second product at (p, q): the row p of squares against column q of the grouping matrix. -/
theorem group_apply (a : FVec Ideal S512x1024 .f32) (b : FVec Ideal S1024x16 .f32) (p : Fin 512) (q : Fin 16) :
    matmul dot_S512x1024_S1024x16_S512x16_1_0_0_1_n_n none a b (constant S512x16 .f32 0x00000000#32) (ix2 p q)
      = ∑ j : Fin 1024, a (ix2 p j) * b (ix2 j q) := by
  simp only [matmul]
  rw [Ideal.matmul_constant_zero_apply]
  exact PlainDot.sum_eq dot_S512x1024_S1024x16_S512x16_1_0_0_1_n_n rfl rfl rfl rfl rfl rfl a b p q

/-- The stored value at (p, q), from the three loaded blocks. -/
theorem pay_apply (x0 : Vec Ideal S512x4096 .f32) (x1 : Vec Ideal S4096x1024 .bf16) (x2 : Vec Ideal S1024x16 .f32)
    (p : Fin 512) (q : Fin 16) :
    k0_pay1 (F := Ideal) x0 x1 x2 (ix2 p q)
      = Ideal.sqrt (∑ j : Fin 1024,
          (∑ d : Fin 4096, (x0 (ix2 p d) : EReal) * x1 (ix2 d j)) * (∑ d : Fin 4096, (x0 (ix2 p d) : EReal) * x1 (ix2 d j))
            * x2 (ix2 j q)) := by
  unfold k0_pay1
  simp only [shapeCast_self]
  show Ideal.sqrt (matmul (F := Ideal) dot_S512x1024_S1024x16_S512x16_1_0_0_1_n_n none
      (mulf (F := Ideal) (matmul (F := Ideal) dot_S512x4096_S4096x1024_S512x1024_1_0_0_1_n_n none (truncf (F := Ideal) .bf16 x0 bitsLt_bf16_f32) x1 (constant (F := Ideal) S512x1024 .f32 0x00000000#32))
        (matmul (F := Ideal) dot_S512x4096_S4096x1024_S512x1024_1_0_0_1_n_n none (truncf (F := Ideal) .bf16 x0 bitsLt_bf16_f32) x1 (constant (F := Ideal) S512x1024 .f32 0x00000000#32)))
      x2 (constant (F := Ideal) S512x16 .f32 0x00000000#32) (ix2 p q)) = _
  rw [group_apply]
  refine congrArg Ideal.sqrt (Finset.sum_congr rfl fun j _ => ?_)
  rw [mulf_apply, proj_apply]
  rfl

end Cert.KernelIdeal.RouterBody

end
-- ==== Proof.RouterValue.lean ====
/-
  From the kernel's blocks to the whole output array.

  The grid has 16 points.  Point t works on rows t * 512 ... t * 512 + 511: its row window and its output window are
  block t, and its weight and grouping windows are the whole flattened-weight and grouping arrays (block 0).  So at
  local row p and column q the body reads rows(t * 512 + p, d), the flattened weights at (d, j), which hold
  w(j / 64, j % 64, d), and the grouping matrix at (j, q), which is 1 when j / 64 = q and else 0; what it stores there
  is the score, in the flat arrangement, of row t * 512 + p and expert q.  The sixteen output blocks tile the 8192 rows
  (row r is in block r / 512), so after the run the output array is the flat score of the argument arrays everywhere.
-/
import proofs.«111365_j48352741818881_1_alg».proof.Proof.Gen.KernelIdeal.Value
import proofs.«111365_j48352741818881_1_alg».proof.Proof.RouterSpec
import proofs.«111365_j48352741818881_1_alg».proof.Proof.RouterHost
import proofs.«111365_j48352741818881_1_alg».proof.Proof.RouterBody
import Idealize.ShloMosaic.Lib.Pipeline.Value
import Idealize.ShloMosaic.Lib.ValueIdx

noncomputable section

namespace Cert.KernelIdeal.RouterValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The rows as the program was given them. -/
abbrev rows (c : Dev nD) : Router.SX.Idx → EReal := m ((c : Thread nD τ).loc main_arg0)
/-- The weights as the program was given them. -/
abbrev wts (c : Dev nD) : Router.SW.Idx → EReal := m ((c : Thread nD τ).loc main_arg1)

theorem origin2 : (![0, 0] : Fin 2 → Nat) = fun _ => 0 := funext fun a => by fin_cases a <;> rfl

/-- The index maps over the grid: the row window and the output window sit at block t, the weight and grouping
    windows at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at local (p, q), given what the three loaded blocks hold there: the flat score of row
    `b` and expert `q`. -/
theorem point_value (X : Router.SX.Idx → EReal) (W : Router.SW.Idx → EReal)
    (x0 : Vec Ideal S512x4096 .f32) (x1 : Vec Ideal S4096x1024 .bf16) (x2 : Vec Ideal S1024x16 .f32)
    (b : Fin 8192) (p : Fin 512) (q : Fin 16)
    (h0 : ∀ d : Fin 4096, (x0 (ix2 p d) : EReal) = X (ix2 b d))
    (h1 : ∀ (d : Fin 4096) (j : Fin 1024), (x1 (ix2 d j) : EReal) = W (ix3 (Router.expertOf j) (Router.dirOf j) d))
    (h2 : ∀ j : Fin 1024, (x2 (ix2 j q) : EReal) = (if j.val / 64 = q.val then 1 else 0 : EReal)) :
    (k0_pay1 (F := Ideal) x0 x1 x2 (ix2 p q) : EReal) = Router.scoreFlat X W (ix2 b q) := by
  rw [RouterBody.pay_apply]
  unfold Router.scoreFlat Router.projFlat
  refine congrArg Ideal.sqrt (Finset.sum_congr rfl fun j _ => ?_)
  rw [h2 j]
  simp only [h0, h1]

/-- What point `t` writes back is block `t` of the flat score of the argument arrays. -/
theorem flushed_eq (c : Dev nD) (t : Fin cfg0.N) :
    (dats m 0 c).flushed 3 t = ((cfg0.win 3).blk t).view.read (Elt Ideal) (Router.scoreFlat (rows m c) (wts m c)) := by
  rw [Value.flushed3]
  unfold out0_3
  rw [View.canon_unit_zero origin2]
  simp only [View.ld_unit_zero (S := S512x4096) origin2, View.ld_unit_zero (S := S4096x1024) origin2,
    View.ld_unit_zero (S := S1024x16) origin2]
  obtain ⟨e00, e01, e10, e11, e20, e21, e30, e31⟩ := block_indices t
  have ht : t.val < 16 := by
    have h : t.val < grid0.N := t.isLt
    rw [N_0] at h; exact h
  funext y
  obtain ⟨p, q, rfl⟩ : ∃ (p : Fin 512) (q : Fin 16), y = ix2 p q := ⟨y 0, y 1, eq_ix2 y⟩
  have hb : t.val * 512 + p.val < 8192 := by have := p.isLt; omega
  have hout : ((cfg0.win 3).blk t).view.emb (ix2 p q) = (ix2 (⟨t.val * 512 + p.val, hb⟩ : Fin 8192) q : S8192x16.Idx) := by
    funext a; apply Fin.ext
    match a with
    | ⟨0, _⟩ => show win0_3.index t (0 : Fin 2) * 512 + 1 * p.val = t.val * 512 + p.val; omega
    | ⟨1, _⟩ => show win0_3.index t (1 : Fin 2) * 16 + 1 * q.val = q.val; omega
  show (k0_pay1 (F := Ideal) (iblk m c 0 t) (iblk m c 1 t) (iblk m c 2 t) (ix2 p q) : EReal)
      = Router.scoreFlat (rows m c) (wts m c) (((cfg0.win 3).blk t).view.emb (ix2 p q))
  rw [hout]
  refine point_value (rows m c) (wts m c) (iblk m c 0 t) (iblk m c 1 t) (iblk m c 2 t) ⟨t.val * 512 + p.val, hb⟩ p q ?_ ?_ ?_
  · intro d
    show V m c main_arg0 (((cfg0.win 0).blk t).view.emb (ix2 p d)) = rows m c (ix2 ⟨t.val * 512 + p.val, hb⟩ d)
    rw [V_main_arg0]
    refine congrArg (rows m c) (funext fun a => Fin.ext ?_)
    match a with
    | ⟨0, _⟩ => show win0_0.index t (0 : Fin 2) * 512 + 1 * p.val = t.val * 512 + p.val; omega
    | ⟨1, _⟩ => show win0_0.index t (1 : Fin 2) * 4096 + 1 * d.val = d.val; omega
  · intro d j
    show V m c main_v2 (((cfg0.win 1).blk t).view.emb (ix2 d j)) = _
    have he : ((cfg0.win 1).blk t).view.emb (ix2 d j) = (ix2 d j : S4096x1024.Idx) := by
      funext a; apply Fin.ext
      match a with
      | ⟨0, _⟩ => show win0_1.index t (0 : Fin 2) * 4096 + 1 * d.val = d.val; omega
      | ⟨1, _⟩ => show win0_1.index t (1 : Fin 2) * 1024 + 1 * j.val = j.val; omega
    rw [he]
    exact RouterHost.weight_apply m c d j
  · intro j
    show V m c main_v5 (((cfg0.win 2).blk t).view.emb (ix2 j q)) = _
    have he : ((cfg0.win 2).blk t).view.emb (ix2 j q) = (ix2 j q : S1024x16.Idx) := by
      funext a; apply Fin.ext
      match a with
      | ⟨0, _⟩ => show win0_2.index t (0 : Fin 2) * 1024 + 1 * j.val = j.val; omega
      | ⟨1, _⟩ => show win0_2.index t (1 : Fin 2) * 16 + 1 * q.val = q.val; omega
    rw [he]
    exact RouterHost.group_apply m c j q

/-- An index of the output array is in point `t`'s block iff each coordinate is in the block's range on its axis. -/
theorem mem_block (t : Fin cfg0.N) (i : S8192x16.Idx) :
    i ∈ ((cfg0.win 3).blk t).view.set ↔ ∀ a : Fin 2, win0_3.index t a * S512x16.size a ≤ (i a).val ∧ (i a).val < win0_3.index t a * S512x16.size a + S512x16.size a := by
  show i ∈ ((View.whole main_v6).slice (win0_3.rect t)).set ↔ _
  rw [View.set_slice_whole, Rect.mem_set_unit]
  exact Iff.rfl

/-- Row r of the output is in the block of point r / 512. -/
theorem covered (i : S8192x16.Idx) : ∃ t : Fin cfg0.N, (cfg0.win 3).flush t = true ∧ i ∈ ((cfg0.win 3).blk t).view.set := by
  have hi0 : (i 0).val < 8192 := (i 0).isLt
  have hi1 : (i 1).val < 16 := (i 1).isLt
  let t : Fin cfg0.N := ⟨(i 0).val / 512, by show _ < grid0.N; rw [N_0]; omega⟩
  obtain ⟨-, -, -, -, -, -, e30, e31⟩ := block_indices t
  have htv : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 16 ≤ (i 1).val ∧ (i 1).val < win0_3.index t (1 : Fin 2) * 16 + 16; omega

/-- After the run the output array is the flat score of the argument arrays. -/
theorem final (c : Dev nD) : (dats m 0 c).arrAt 3 cfg0.N = Router.scoreFlat (rows m c) (wts m c) :=
  (dats m 0 c).arrAt_eq_of_cover 3 (Router.scoreFlat (rows m c) (wts m c)) (fun t _ => flushed_eq m c t) covered

/-- The kernel's run with the output array named: the flat score of the arguments, which end unchanged. -/
theorem run : θ_run defs (onTc (τ := τ) (main (F := Ideal))) ⟨m, fun _ => 0, ρ⟩ fun r => ∀ c : Dev nD,
      r.2.mem ((c : Thread nD τ).loc main_v6) = Router.scoreFlat (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RouterValue

end
-- ==== Proof.RouterRef.lean ====
/-
  The reference computes the score.

  The reference contracts the feature axis of the rows against the feature axis of the weights, which gives the
  projections t(b, e, k) = sum over d of x(b, d) * w(e, k, d) directly as an 8192 x 16 x 64 array; it squares them,
  sums over the direction k starting from zero, and takes the square root.  Read at (b, e) that is the score as the
  specification states it: zero plus a sum is the sum, and the square root on the host is the exact square root.
-/
import proofs.«111365_j48352741818881_1_alg».proof.Proof.Gen.ReferenceIdeal.Read
import proofs.«111365_j48352741818881_1_alg».proof.Proof.RouterSpec
import Idealize.ShloMosaic.PureOps.Ideal.Laws
import Idealize.ShloMosaic.Lib.ValueIdx

noncomputable section

namespace Cert.ReferenceIdeal.RouterRef

open Cert.ReferenceIdeal Cert.ReferenceIdeal.Gen Cert.ReferenceIdeal.Read Idealize.ShloMosaic Idealize.ShloMosaic.ValueIdx

/-- The reference's result, as a function of its two arguments, is the score. -/
theorem ref_eq (x : (⟨S8192x4096, .f32⟩ : BufTy).Contents (Elt Ideal)) (w : (⟨S16x64x4096, .f32⟩ : BufTy).Contents (Elt Ideal)) :
    val_main_v3 (F := Ideal) x w = Router.score x w := by
  funext i
  have hl : ∀ (k : Fin 64) (d : Fin 4096), lidx_main_v0 (idx_main_v2 i k) d = (ix2 (i 0) d : S8192x4096.Idx) :=
    fun k d => funext fun a => by match a with | ⟨0, _⟩ => rfl | ⟨1, _⟩ => rfl
  have hr : ∀ (k : Fin 64) (d : Fin 4096), ridx_main_v0 (idx_main_v2 i k) d = (ix3 (i 1) k d : S16x64x4096.Idx) :=
    fun k d => funext fun a => by match a with | ⟨0, _⟩ => rfl | ⟨1, _⟩ => rfl | ⟨2, _⟩ => rfl
  rw [val_main_v3_apply, val_main_v2_apply]
  simp only [val_main_v1_apply, val_main_v0_apply, val_main_cst_apply, hl, hr, Ideal.hostUnary_sqrt_def, Ideal.mulf_def,
    Ideal.ofBits_def, Ideal.ofBits_zero_f32, zero_add]
  rfl

end Cert.ReferenceIdeal.RouterRef

end
-- ==== Proof.lean ====
/-
  A router score kernel against its reference, over the extended reals.

  For each of 8192 rows x(b, .) of 4096 features and each of 16 experts e with 64 directions w(e, k, .), the score is
  the length of the row's projections on the expert's directions:
      score(b, e) = sqrt (sum over k < 64 of (sum over d < 4096 of x(b, d) * w(e, k, d))^2).
  The reference computes exactly this.  The kernel flattens the pairs (e, k) to j = e * 64 + k < 1024, computes all
  1024 projections of a block of 512 rows in one matrix product, squares them, and sums each expert's sixty-four squares
  by a second matrix product with a 0/1 grouping matrix that holds 1 at (j, e) exactly when j / 64 = e.  Changes of
  float format are identities on extended reals, both products start from zero, and a product with 0 or with 1 needs no
  finiteness, so the two results agree entry by entry for all extended-real inputs; the precondition is not used.

  The modules: the score in both arrangements and the law joining them (RouterSpec); the weight and grouping arrays
  the program computes before the kernel region, read at an index (RouterHost); the kernel body's stored value at an
  index (RouterBody, over the contraction-sum lemma of LibPlainDot); the sixteen blocks assembled into the output array
  (RouterValue); the reference's stages read back (RouterRef).  The kernel over the extended reals is the kernel's own
  text read there, with no operation replaced, so the conjunct that relates the two is trivial.
-/
import proofs.«111365_j48352741818881_1_alg».proof.Defs
import proofs.«111365_j48352741818881_1_alg».proof.Proof.Gen.Kernel
import proofs.«111365_j48352741818881_1_alg».proof.Proof.Gen.Kernel.Skeleton
import proofs.«111365_j48352741818881_1_alg».proof.Proof.Gen.Kernel.Launch
import proofs.«111365_j48352741818881_1_alg».proof.Proof.Gen.Kernel.Points
import proofs.«111365_j48352741818881_1_alg».proof.Proof.Gen.Kernel.Frame
import proofs.«111365_j48352741818881_1_alg».proof.Proof.Gen.KernelIdeal
import proofs.«111365_j48352741818881_1_alg».proof.Proof.Gen.KernelIdeal.Skeleton
import proofs.«111365_j48352741818881_1_alg».proof.Proof.Gen.KernelIdeal.Launch
import proofs.«111365_j48352741818881_1_alg».proof.Proof.Gen.KernelIdeal.Points
import proofs.«111365_j48352741818881_1_alg».proof.Proof.Gen.KernelIdeal.Frame
import proofs.«111365_j48352741818881_1_alg».proof.Proof.Gen.ReferenceIdeal
import proofs.«111365_j48352741818881_1_alg».proof.Proof.Gen.Pre_finite_inputs
import proofs.«111365_j48352741818881_1_alg».proof.Proof.Gen.KernelIdeal.Value
import proofs.«111365_j48352741818881_1_alg».proof.Proof.Gen.ReferenceIdeal.Run
import proofs.«111365_j48352741818881_1_alg».proof.Proof.Gen.ReferenceIdeal.Read
import proofs.«111365_j48352741818881_1_alg».proof.Proof.RouterSpec
import proofs.«111365_j48352741818881_1_alg».proof.Proof.RouterValue
import proofs.«111365_j48352741818881_1_alg».proof.Proof.RouterRef
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the rows and the weights both programs end with the score of those arrays: the
    kernel in the flat arrangement, which is the same function, and the reference in its own. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Router.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Router.scoreFlat_eq _ _), (h c).2⟩)
      (Cert.KernelIdeal.RouterValue.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v3_eq, Cert.ReferenceIdeal.RouterRef.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
